-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x320x128 : Shape := ⟨3, ![2, 320, 128]⟩
abbrev S320x128 : Shape := ⟨2, ![320, 128]⟩
abbrev S_ : Shape := ⟨0, ![]⟩

class Facts : Prop where
  bcast_S_S2x320x128 : S_.BroadcastsInDim S2x320x128 (![] : Fin 0 → Fin S2x320x128.rank)
  reducesTo_S2x320x128_S_d0_1_2 : S2x320x128.ReducesTo [0, 1, 2] S_
  h_S_ : 0 < S_.numel
  bcast_S_S320x128 : S_.BroadcastsInDim S320x128 (![] : Fin 0 → Fin S320x128.rank)
  reducesTo_S320x128_S_d0_1 : S320x128.ReducesTo [0, 1] S_

variable [Facts]

def fn {F : FTy → Type} [FloatOps F] (main_arg0 : FVec F S2x320x128 .f32) (main_arg1 : FVec F S320x128 .f32) : IVec S_ 1 :=
  let main_v0 : FVec F S2x320x128 .f32 := Host.absf main_arg0
  let main_cst : FVec F S_ .f32 := constant S_ .f32 0x7F800000#32
  let main_v1 : FVec F S2x320x128 .f32 := broadcastInDim S2x320x128 ![] bcast_S_S2x320x128 main_cst
  let main_v2 : IVec S2x320x128 1 := cmpf .olt main_v0 main_v1
  let main_c : IVec S_ 1 := constantI S_ 1 1#1
  let main_v3 : IVec S_ 1 := (fun x v => Host.reduce IntOp.andi x v reducesTo_S2x320x128_S_d0_1_2 h_S_) main_v2 main_c
  let main_v4 : FVec F S320x128 .f32 := Host.absf main_arg1
  let main_cst_0 : FVec F S_ .f32 := constant S_ .f32 0x7F800000#32
  let main_v5 : FVec F S320x128 .f32 := broadcastInDim S320x128 ![] bcast_S_S320x128 main_cst_0
  let main_v6 : IVec S320x128 1 := cmpf .olt main_v4 main_v5
  let main_c_1 : IVec S_ 1 := constantI S_ 1 1#1
  let main_v7 : IVec S_ 1 := (fun x v => Host.reduce IntOp.andi x v reducesTo_S320x128_S_d0_1 h_S_) main_v6 main_c_1
  let main_v8 : IVec S_ 1 := andi main_v3 main_v7
  main_v8
-- ==== Kernel.lean ====
abbrev S2x320x128 : Shape := ⟨3, ![2, 320, 128]⟩
abbrev S320x128 : Shape := ⟨2, ![320, 128]⟩
abbrev S_ : Shape := ⟨0, ![]⟩
abbrev S2x320 : Shape := ⟨2, ![2, 320]⟩
abbrev S2x320x1 : Shape := ⟨3, ![2, 320, 1]⟩
abbrev S2x1x320 : Shape := ⟨3, ![2, 1, 320]⟩
abbrev S2x320x320 : Shape := ⟨3, ![2, 320, 320]⟩
abbrev S2x128x320 : Shape := ⟨3, ![2, 128, 320]⟩
abbrev S320x320 : Shape := ⟨2, ![320, 320]⟩
abbrev S320 : Shape := ⟨1, ![320]⟩
abbrev S320x1 : Shape := ⟨2, ![320, 1]⟩
abbrev S1x320 : Shape := ⟨2, ![1, 320]⟩
abbrev S128x320 : Shape := ⟨2, ![128, 320]⟩
abbrev S1x1 : Shape := ⟨2, ![1, 1]⟩
abbrev S8x320 : Shape := ⟨2, ![8, 320]⟩
abbrev S8x1x320 : Shape := ⟨3, ![8, 1, 320]⟩
abbrev S8x320x1 : Shape := ⟨3, ![8, 320, 1]⟩
abbrev S8x320x320 : Shape := ⟨3, ![8, 320, 320]⟩
abbrev S8 : Shape := ⟨1, ![8]⟩
abbrev S8x1 : Shape := ⟨2, ![8, 1]⟩
abbrev S1 : Shape := ⟨1, ![1]⟩

abbrev nBuf : Space → Nat
  | .hbm => 97
  | .vmem => 6
  | .smem => 0
  | _ => 0

abbrev bufTy : (tb : Table) → Fin (tcTables nBuf tb) → BufTy
  | .hbm, ⟨0, _⟩ => ⟨S2x320x128, .f32⟩
  | .hbm, ⟨1, _⟩ => ⟨S320x128, .f32⟩
  | .hbm, ⟨2, _⟩ => ⟨S2x320x128, .f32⟩
  | .hbm, ⟨3, _⟩ => ⟨S_, .f32⟩
  | .hbm, ⟨4, _⟩ => ⟨S2x320, .f32⟩
  | .hbm, ⟨5, _⟩ => ⟨S2x320x1, .f32⟩
  | .hbm, ⟨6, _⟩ => ⟨S2x320x1, .f32⟩
  | .hbm, ⟨7, _⟩ => ⟨S_, .f32⟩
  | .hbm, ⟨8, _⟩ => ⟨S_, .f32⟩
  | .hbm, ⟨9, _⟩ => ⟨S2x320x1, .f32⟩
  | .hbm, ⟨10, _⟩ => ⟨S2x320x1, .f32⟩
  | .hbm, ⟨11, _⟩ => ⟨S2x320x128, .f32⟩
  | .hbm, ⟨12, _⟩ => ⟨S2x320x128, .f32⟩
  | .hbm, ⟨13, _⟩ => ⟨S2x320x128, .f32⟩
  | .hbm, ⟨14, _⟩ => ⟨S_, .f32⟩
  | .hbm, ⟨15, _⟩ => ⟨S2x320, .f32⟩
  | .hbm, ⟨16, _⟩ => ⟨S2x320x1, .f32⟩
  | .hbm, ⟨17, _⟩ => ⟨S2x1x320, .f32⟩
  | .hbm, ⟨18, _⟩ => ⟨S2x320x320, .f32⟩
  | .hbm, ⟨19, _⟩ => ⟨S2x320x320, .f32⟩
  | .hbm, ⟨20, _⟩ => ⟨S2x320x320, .f32⟩
  | .hbm, ⟨21, _⟩ => ⟨S2x128x320, .f32⟩
  | .hbm, ⟨22, _⟩ => ⟨S2x320x320, .f32⟩
  | .hbm, ⟨23, _⟩ => ⟨S_, .f32⟩
  | .hbm, ⟨24, _⟩ => ⟨S2x320x320, .f32⟩
  | .hbm, ⟨25, _⟩ => ⟨S2x320x320, .f32⟩
  | .hbm, ⟨26, _⟩ => ⟨S2x320x320, .f32⟩
  | .hbm, ⟨27, _⟩ => ⟨S_, .f32⟩
  | .hbm, ⟨28, _⟩ => ⟨S2x320x320, .f32⟩
  | .hbm, ⟨29, _⟩ => ⟨S2x320x320, .f32⟩
  | .hbm, ⟨30, _⟩ => ⟨S_, .f32⟩
  | .hbm, ⟨31, _⟩ => ⟨S2x320x320, .f32⟩
  | .hbm, ⟨32, _⟩ => ⟨S2x320x320, .f32⟩
  | .hbm, ⟨33, _⟩ => ⟨S2x320x320, .f32⟩
  | .hbm, ⟨34, _⟩ => ⟨S_, .f32⟩
  | .hbm, ⟨35, _⟩ => ⟨S320x320, .f32⟩
  | .hbm, ⟨36, _⟩ => ⟨S_, .f32⟩
  | .hbm, ⟨37, _⟩ => ⟨S320x320, .f32⟩
  | .hbm, ⟨38, _⟩ => ⟨S320x320, .f32⟩
  | .hbm, ⟨39, _⟩ => ⟨S_, .f32⟩
  | .hbm, ⟨40, _⟩ => ⟨S320x320, .f32⟩
  | .hbm, ⟨41, _⟩ => ⟨S320x320, .f32⟩
  | .hbm, ⟨42, _⟩ => ⟨S_, .f32⟩
  | .hbm, ⟨43, _⟩ => ⟨S320x320, .f32⟩
  | .hbm, ⟨44, _⟩ => ⟨S320x320, .f32⟩
  | .hbm, ⟨45, _⟩ => ⟨S320x320, .f32⟩
  | .hbm, ⟨46, _⟩ => ⟨S320x320, .f32⟩
  | .hbm, ⟨47, _⟩ => ⟨S_, .f32⟩
  | .hbm, ⟨48, _⟩ => ⟨S320x320, .f32⟩
  | .hbm, ⟨49, _⟩ => ⟨S320x320, .f32⟩
  | .hbm, ⟨50, _⟩ => ⟨S_, .f32⟩
  | .hbm, ⟨51, _⟩ => ⟨S320x320, .f32⟩
  | .hbm, ⟨52, _⟩ => ⟨S320x320, .f32⟩
  | .hbm, ⟨53, _⟩ => ⟨S320x128, .f32⟩
  | .hbm, ⟨54, _⟩ => ⟨S_, .f32⟩
  | .hbm, ⟨55, _⟩ => ⟨S320, .f32⟩
  | .hbm, ⟨56, _⟩ => ⟨S320x1, .f32⟩
  | .hbm, ⟨57, _⟩ => ⟨S320x1, .f32⟩
  | .hbm, ⟨58, _⟩ => ⟨S_, .f32⟩
  | .hbm, ⟨59, _⟩ => ⟨S_, .f32⟩
  | .hbm, ⟨60, _⟩ => ⟨S320x1, .f32⟩
  | .hbm, ⟨61, _⟩ => ⟨S320x1, .f32⟩
  | .hbm, ⟨62, _⟩ => ⟨S320x128, .f32⟩
  | .hbm, ⟨63, _⟩ => ⟨S320x128, .f32⟩
  | .hbm, ⟨64, _⟩ => ⟨S320x128, .f32⟩
  | .hbm, ⟨65, _⟩ => ⟨S_, .f32⟩
  | .hbm, ⟨66, _⟩ => ⟨S320, .f32⟩
  | .hbm, ⟨67, _⟩ => ⟨S320x1, .f32⟩
  | .hbm, ⟨68, _⟩ => ⟨S1x320, .f32⟩
  | .hbm, ⟨69, _⟩ => ⟨S320x320, .f32⟩
  | .hbm, ⟨70, _⟩ => ⟨S320x320, .f32⟩
  | .hbm, ⟨71, _⟩ => ⟨S320x320, .f32⟩
  | .hbm, ⟨72, _⟩ => ⟨S128x320, .f32⟩
  | .hbm, ⟨73, _⟩ => ⟨S320x320, .f32⟩
  | .hbm, ⟨74, _⟩ => ⟨S_, .f32⟩
  | .hbm, ⟨75, _⟩ => ⟨S320x320, .f32⟩
  | .hbm, ⟨76, _⟩ => ⟨S320x320, .f32⟩
  | .hbm, ⟨77, _⟩ => ⟨S320x320, .f32⟩
  | .hbm, ⟨78, _⟩ => ⟨S_, .f32⟩
  | .hbm, ⟨79, _⟩ => ⟨S320x320, .f32⟩
  | .hbm, ⟨80, _⟩ => ⟨S320x320, .f32⟩
  | .hbm, ⟨81, _⟩ => ⟨S_, .f32⟩
  | .hbm, ⟨82, _⟩ => ⟨S320x320, .f32⟩
  | .hbm, ⟨83, _⟩ => ⟨S320x320, .f32⟩
  | .hbm, ⟨84, _⟩ => ⟨S320x320, .f32⟩
  | .hbm, ⟨85, _⟩ => ⟨S1x1, .f32⟩
  | .hbm, ⟨86, _⟩ => ⟨S1x1, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S8x320, .f32⟩
  | .local _ .vmem, ⟨1, _⟩ => ⟨S8x320, .f32⟩
  | .local _ .vmem, ⟨2, _⟩ => ⟨S8x320, .f32⟩
  | .local _ .vmem, ⟨3, _⟩ => ⟨S8x320, .f32⟩
  | .local _ .vmem, ⟨4, _⟩ => ⟨S1x1, .f32⟩
  | .local _ .vmem, ⟨5, _⟩ => ⟨S1x1, .f32⟩
  | _, _ => ⟨S2x320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_call2_v0 : Ref sig .tc := ⟨.hbm, 53, rfl⟩
abbrev main_call2_cst : Ref sig .tc := ⟨.hbm, 54, rfl⟩
abbrev main_call2_v1 : Ref sig .tc := ⟨.hbm, 55, rfl⟩
abbrev main_call2_v2 : Ref sig .tc := ⟨.hbm, 56, rfl⟩
abbrev main_v34 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55_0 : Ref sig .tc := ⟨.hbm, 85, rfl⟩
abbrev main_v55_1 : Ref sig .tc := ⟨.hbm, 86, rfl⟩
abbrev main_v56 : Ref sig .tc := ⟨.hbm, 87, rfl⟩
abbrev main_v57 : Ref sig .tc := ⟨.hbm, 88, rfl⟩
abbrev main_cst_15 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_call4_v0 : Ref sig .tc := ⟨.hbm, 95, rfl⟩
abbrev main_v61 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S2x320x128_S2x320_d2 : S2x320x128.ReducesTo [2] S2x320
  h_S_ : 0 < S_.numel
  bcast_S2x320_S2x320x1_0_1 : S2x320.BroadcastsInDim S2x320x1 (![0, 1] : Fin 2 → Fin S2x320x1.rank)
  bcast_S_S2x320x1 : S_.BroadcastsInDim S2x320x1 (![] : Fin 0 → Fin S2x320x1.rank)
  bcast_S2x320x1_S2x320x128_0_1_2 : S2x320x1.BroadcastsInDim S2x320x128 (![0, 1, 2] : Fin 3 → Fin S2x320x128.rank)
  bcast_S2x320_S2x1x320_0_2 : S2x320.BroadcastsInDim S2x1x320 (![0, 2] : Fin 2 → Fin S2x1x320.rank)
  bcast_S2x320x1_S2x320x320_0_1_2 : S2x320x1.BroadcastsInDim S2x320x320 (![0, 1, 2] : Fin 3 → Fin S2x320x320.rank)
  bcast_S2x1x320_S2x320x320_0_1_2 : S2x1x320.BroadcastsInDim S2x320x320 (![0, 1, 2] : Fin 3 → Fin S2x320x320.rank)
  transposes_S2x320x128_S2x128x320_0_2_1 : S2x320x128.Transposes [0, 2, 1] S2x128x320
  bcast_S_S2x320x320 : S_.BroadcastsInDim S2x320x320 (![] : Fin 0 → Fin S2x320x320.rank)
  reducesTo_S2x320x320_S320x320_d0 : S2x320x320.ReducesTo [0] S320x320
  bcast_S_S320x320 : S_.BroadcastsInDim S320x320 (![] : Fin 0 → Fin S320x320.rank)
  reducesTo_S320x128_S320_d1 : S320x128.ReducesTo [1] S320
  bcast_S320_S320x1_0 : S320.BroadcastsInDim S320x1 (![0] : Fin 1 → Fin S320x1.rank)
  bcast_S_S320x1 : S_.BroadcastsInDim S320x1 (![] : Fin 0 → Fin S320x1.rank)
  bcast_S320x1_S320x128_0_1 : S320x1.BroadcastsInDim S320x128 (![0, 1] : Fin 2 → Fin S320x128.rank)
  bcast_S320_S1x320_1 : S320.BroadcastsInDim S1x320 (![1] : Fin 1 → Fin S1x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  transposes_S320x128_S128x320_1_0 : S320x128.Transposes [1, 0] S128x320
  inb_S1x1_S1x1_0_0 : ∀ a, (![0, 0] : Fin 2 → Nat) a + S1x1.size a ≤ S1x1.size a
  h_S1x1 : 0 < S1x1.numel
  inb_S8x320_S8x320_0_0 : ∀ a, (![0, 0] : Fin 2 → Nat) a + S8x320.size a ≤ S8x320.size a
  h_S8x320 : 0 < S8x320.numel
  shapeCasts_S8x320_S8x320 : S8x320.ShapeCasts S8x320
  shapeCasts_S8x320_S8x1x320 : S8x320.ShapeCasts S8x1x320
  shapeCasts_S8x320_S8x320x1 : S8x320.ShapeCasts S8x320x1
  broadcasts_S8x1x320_S8x320x320 : S8x1x320.Broadcasts S8x320x320
  broadcasts_S8x320x1_S8x320x320 : S8x320x1.Broadcasts S8x320x320
  natLt_1_32 : 1 < 32
  reduces_S8x320x320_S8x320 : S8x320x320.Reduces [2] S8x320
  reduces_S8x320_S8 : S8x320.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  dot_S2x320x128_S2x128x320_S2x320x320_2_1_1_2_0_0_wf : DotDims.WF S2x320x128 S2x128x320 S2x320x320 [2] [1] [1] [2] [0] [0]
  dot_S320x128_S128x320_S320x320_1_0_0_1_n_n_wf : DotDims.WF S320x128 S128x320 S320x320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x320.size a ≤ S320x320.size a
  hwx0_0 : ∀ i : grid0.Coords, EltTy.bits .f32 = 32 ∨ (Rect.block (s := S320x320) S8x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x320.size a ≤ S320x320.size a
  hwx0_1 : ∀ i : grid0.Coords, EltTy.bits .f32 = 32 ∨ (Rect.block (s := S320x320) S8x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S2x320x128_S2x128x320_S2x320x320_2_1_1_2_0_0 : DotDims S2x320x128 S2x128x320 S2x320x320 where
  lhsContracting := [2]
  rhsContracting := [1]
  lhsNonContracting := [1]
  rhsNonContracting := [2]
  lhsBatch := [0]
  rhsBatch := [0]
  wf := dot_S2x320x128_S2x128x320_S2x320x320_2_1_1_2_0_0_wf
def dot_S320x128_S128x320_S320x320_1_0_0_1_n_n : DotDims S320x128 S128x320 S320x320 where
  lhsContracting := [1]
  rhsContracting := [0]
  lhsNonContracting := [0]
  rhsNonContracting := [1]
  lhsBatch := []
  rhsBatch := []
  wf := dot_S320x128_S128x320_S320x320_1_0_0_1_n_n_wf

abbrev win0_0 : Pipeline.Window sig grid0 :=
  Pipeline.Window.ofSpec (Memref.whole main_v54) S8x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S8x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x320x128 : Shape := ⟨3, ![2, 320, 128]⟩
abbrev S320x128 : Shape := ⟨2, ![320, 128]⟩
abbrev S_ : Shape := ⟨0, ![]⟩
abbrev S2x320 : Shape := ⟨2, ![2, 320]⟩
abbrev S2x320x1 : Shape := ⟨3, ![2, 320, 1]⟩
abbrev S2x1x320 : Shape := ⟨3, ![2, 1, 320]⟩
abbrev S2x320x320 : Shape := ⟨3, ![2, 320, 320]⟩
abbrev S2x128x320 : Shape := ⟨3, ![2, 128, 320]⟩
abbrev S320x320 : Shape := ⟨2, ![320, 320]⟩
abbrev S320x320x1 : Shape := ⟨3, ![320, 320, 1]⟩
abbrev S320x1x320 : Shape := ⟨3, ![320, 1, 320]⟩
abbrev S320x320x320 : Shape := ⟨3, ![320, 320, 320]⟩
abbrev S320 : Shape := ⟨1, ![320]⟩
abbrev S320x1 : Shape := ⟨2, ![320, 1]⟩
abbrev S1x320 : Shape := ⟨2, ![1, 320]⟩
abbrev S128x320 : Shape := ⟨2, ![128, 320]⟩

abbrev nBuf : Space → Nat
  | .hbm => 154
  | .vmem => 0
  | .smem => 0
  | _ => 0

abbrev hbmTy0_0 (i : Nat) : BufTy := match i % 128 with
  | 0 => ⟨S2x320x128, .f32⟩
  | 1 => ⟨S320x128, .f32⟩
  | 2 => ⟨S2x320x128, .f32⟩
  | 3 => ⟨S_, .f32⟩
  | 4 => ⟨S2x320, .f32⟩
  | 5 => ⟨S2x320x1, .f32⟩
  | 6 => ⟨S2x320x1, .f32⟩
  | 7 => ⟨S_, .f32⟩
  | 8 => ⟨S_, .f32⟩
  | 9 => ⟨S2x320x1, .f32⟩
  | 10 => ⟨S2x320x1, .f32⟩
  | 11 => ⟨S2x320x128, .f32⟩
  | 12 => ⟨S2x320x128, .f32⟩
  | 13 => ⟨S2x320x128, .f32⟩
  | 14 => ⟨S_, .f32⟩
  | 15 => ⟨S2x320, .f32⟩
  | 16 => ⟨S2x320x1, .f32⟩
  | 17 => ⟨S2x1x320, .f32⟩
  | 18 => ⟨S2x320x320, .f32⟩
  | 19 => ⟨S2x320x320, .f32⟩
  | 20 => ⟨S2x320x320, .f32⟩
  | 21 => ⟨S2x128x320, .f32⟩
  | 22 => ⟨S2x320x320, .f32⟩
  | 23 => ⟨S_, .f32⟩
  | 24 => ⟨S2x320x320, .f32⟩
  | 25 => ⟨S2x320x320, .f32⟩
  | 26 => ⟨S2x320x320, .f32⟩
  | 27 => ⟨S_, .f32⟩
  | 28 => ⟨S2x320x320, .f32⟩
  | 29 => ⟨S2x320x320, .f32⟩
  | 30 => ⟨S_, .f32⟩
  | 31 => ⟨S2x320x320, .f32⟩
  | 32 => ⟨S2x320x320, .f32⟩
  | 33 => ⟨S2x320x320, .f32⟩
  | 34 => ⟨S_, .f32⟩
  | 35 => ⟨S320x320, .f32⟩
  | 36 => ⟨S_, .f32⟩
  | 37 => ⟨S320x320, .f32⟩
  | 38 => ⟨S320x320, .f32⟩
  | 39 => ⟨S_, .f32⟩
  | 40 => ⟨S320x320, .f32⟩
  | 41 => ⟨S320x320, .f32⟩
  | 42 => ⟨S_, .f32⟩
  | 43 => ⟨S320x320, .f32⟩
  | 44 => ⟨S320x320, .f32⟩
  | 45 => ⟨S320x320, .f32⟩
  | 46 => ⟨S320x320, .f32⟩
  | 47 => ⟨S_, .f32⟩
  | 48 => ⟨S320x320, .f32⟩
  | 49 => ⟨S320x320, .f32⟩
  | 50 => ⟨S_, .f32⟩
  | 51 => ⟨S320x320, .f32⟩
  | 52 => ⟨S320x320, .f32⟩
  | 53 => ⟨S320x320x1, .f32⟩
  | 54 => ⟨S320x1x320, .f32⟩
  | 55 => ⟨S_, .f32⟩
  | 56 => ⟨S320x1x320, .f32⟩
  | 57 => ⟨S320x1x320, .f32⟩
  | 58 => ⟨S320x320x320, .f32⟩
  | 59 => ⟨S320x320x320, .f32⟩
  | 60 => ⟨S320x320x320, .f32⟩
  | 61 => ⟨S320x128, .f32⟩
  | 62 => ⟨S_, .f32⟩
  | 63 => ⟨S320, .f32⟩
  | 64 => ⟨S320x1, .f32⟩
  | 65 => ⟨S320x1, .f32⟩
  | 66 => ⟨S_, .f32⟩
  | 67 => ⟨S_, .f32⟩
  | 68 => ⟨S320x1, .f32⟩
  | 69 => ⟨S320x1, .f32⟩
  | 70 => ⟨S320x128, .f32⟩
  | 71 => ⟨S320x128, .f32⟩
  | 72 => ⟨S320x128, .f32⟩
  | 73 => ⟨S_, .f32⟩
  | 74 => ⟨S320, .f32⟩
  | 75 => ⟨S320x1, .f32⟩
  | 76 => ⟨S1x320, .f32⟩
  | 77 => ⟨S320x320, .f32⟩
  | 78 => ⟨S320x320, .f32⟩
  | 79 => ⟨S320x320, .f32⟩
  | 80 => ⟨S128x320, .f32⟩
  | 81 => ⟨S320x320, .f32⟩
  | 82 => ⟨S_, .f32⟩
  | 83 => ⟨S320x320, .f32⟩
  | 84 => ⟨S320x320, .f32⟩
  | 85 => ⟨S320x320, .f32⟩
  | 86 => ⟨S_, .f32⟩
  | 87 => ⟨S320x320, .f32⟩
  | 88 => ⟨S320x320, .f32⟩
  | 89 => ⟨S_, .f32⟩
  | 90 => ⟨S320x320, .f32⟩
  | 91 => ⟨S320x320, .f32⟩
  | 92 => ⟨S320x320, .f32⟩
  | 93 => ⟨S320x1x320, .f32⟩
  | 94 => ⟨S320x320x1, .f32⟩
  | 95 => ⟨S320x320x320, .f32⟩
  | 96 => ⟨S320x320x320, .f32⟩
  | 97 => ⟨S320x320x320, .f32⟩
  | 98 => ⟨S_, .f32⟩
  | 99 => ⟨S320x320x320, .f32⟩
  | 100 => ⟨S320x320x320, .f32⟩
  | 101 => ⟨S_, .f32⟩
  | 102 => ⟨S320x320x320, .f32⟩
  | 103 => ⟨S320x320x320, .f32⟩
  | 104 => ⟨S_, .f32⟩
  | 105 => ⟨S320x320x320, .f32⟩
  | 106 => ⟨S320x320x320, .i1⟩
  | 107 => ⟨S_, .f32⟩
  | 108 => ⟨S320x320x320, .f32⟩
  | 109 => ⟨S320x320x320, .i1⟩
  | 110 => ⟨S320x320x320, .i1⟩
  | 111 => ⟨S320x320x320, .f32⟩
  | 112 => ⟨S320x320x320, .f32⟩
  | 113 => ⟨S320x320x320, .f32⟩
  | 114 => ⟨S_, .f32⟩
  | 115 => ⟨S320x320, .f32⟩
  | 116 => ⟨S_, .f32⟩
  | 117 => ⟨S320x320x320, .f32⟩
  | 118 => ⟨S320x320x320, .i1⟩
  | 119 => ⟨S320x320x320, .f32⟩
  | 120 => ⟨S320x320x320, .f32⟩
  | 121 => ⟨S_, .f32⟩
  | 122 => ⟨S320x320x320, .f32⟩
  | 123 => ⟨S320x320x320, .f32⟩
  | 124 => ⟨S320x320x320, .f32⟩
  | 125 => ⟨S_, .f32⟩
  | 126 => ⟨S320x320, .f32⟩
  | 127 => ⟨S_, .f32⟩
  | _ => ⟨S2x320x128, .f32⟩

abbrev hbmTy0_1 (i : Nat) : BufTy := match i % 128 with
  | 0 => ⟨S320x320, .f32⟩
  | 1 => ⟨S320x320, .f32⟩
  | 2 => ⟨S_, .f32⟩
  | 3 => ⟨S320x320, .f32⟩
  | 4 => ⟨S320x320, .i1⟩
  | 5 => ⟨S320x320, .f32⟩
  | 6 => ⟨S320x320, .f32⟩
  | 7 => ⟨S_, .f32⟩
  | 8 => ⟨S320x320, .f32⟩
  | 9 => ⟨S320x320, .i1⟩
  | 10 => ⟨S320x320, .f32⟩
  | 11 => ⟨S320x320, .f32⟩
  | 12 => ⟨S320x320, .f32⟩
  | 13 => ⟨S320x320, .f32⟩
  | 14 => ⟨S_, .f32⟩
  | 15 => ⟨S_, .f32⟩
  | 16 => ⟨S_, .f32⟩
  | 17 => ⟨S_, .f32⟩
  | 18 => ⟨S_, .f32⟩
  | 19 => ⟨S_, .i1⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S2x320x128, .f32⟩

abbrev hbmTy (i : Nat) : BufTy := match i / 128 with
  | 0 => hbmTy0_0 i
  | 1 => hbmTy0_1 i
  | _ => ⟨S2x320x128, .f32⟩

abbrev bufTy : (tb : Table) → Fin (tcTables nBuf tb) → BufTy
  | .hbm, ⟨i, _⟩ => hbmTy i
  | _, _ => ⟨S2x320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_v0 : Ref sig .tc := ⟨.hbm, 61, rfl⟩
abbrev main_call2_cst : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_cst_11 : Ref sig .tc := ⟨.hbm, 66, rfl⟩
abbrev main_call3_v0 : Ref sig .tc := ⟨.hbm, 67, rfl⟩
abbrev main_call3_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_cst_17 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_20 : Ref sig .tc := ⟨.hbm, 114, rfl⟩
abbrev main_v79 : Ref sig .tc := ⟨.hbm, 115, rfl⟩
abbrev main_cst_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_23 : Ref sig .tc := ⟨.hbm, 125, rfl⟩
abbrev main_v87 : Ref sig .tc := ⟨.hbm, 126, rfl⟩
abbrev main_cst_24 : Ref sig .tc := ⟨.hbm, 127, rfl⟩
abbrev main_v88 : Ref sig .tc := ⟨.hbm, 128, rfl⟩
abbrev main_v89 : Ref sig .tc := ⟨.hbm, 129, rfl⟩
abbrev main_cst_25 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_26 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_27 : Ref sig .tc := ⟨.hbm, 142, rfl⟩
abbrev main_v100 : Ref sig .tc := ⟨.hbm, 143, rfl⟩
abbrev main_cst_28 : Ref sig .tc := ⟨.hbm, 144, rfl⟩
abbrev main_v101 : Ref sig .tc := ⟨.hbm, 145, rfl⟩
abbrev main_cst_29 : Ref sig .tc := ⟨.hbm, 146, rfl⟩
abbrev main_v102 : Ref sig .tc := ⟨.hbm, 147, rfl⟩
abbrev main_cst_30 : Ref sig .tc := ⟨.hbm, 148, rfl⟩
abbrev main_v103 : Ref sig .tc := ⟨.hbm, 149, rfl⟩
abbrev main_v104 : Ref sig .tc := ⟨.hbm, 150, rfl⟩
abbrev main_cst_31 : Ref sig .tc := ⟨.hbm, 151, rfl⟩
abbrev main_call4_v0 : Ref sig .tc := ⟨.hbm, 152, rfl⟩
abbrev main_v105 : Ref sig .tc := ⟨.hbm, 153, rfl⟩

abbrev nD : Nat := 1
abbrev τ : Topo := Topo.v7x

variable {F : FTy → Type} [FloatOps F]

class Facts₀ : Prop where
  reducesTo_S2x320x128_S2x320_d2 : S2x320x128.ReducesTo [2] S2x320
  h_S_ : 0 < S_.numel
  bcast_S2x320_S2x320x1_0_1 : S2x320.BroadcastsInDim S2x320x1 (![0, 1] : Fin 2 → Fin S2x320x1.rank)
  bcast_S_S2x320x1 : S_.BroadcastsInDim S2x320x1 (![] : Fin 0 → Fin S2x320x1.rank)
  bcast_S2x320x1_S2x320x128_0_1_2 : S2x320x1.BroadcastsInDim S2x320x128 (![0, 1, 2] : Fin 3 → Fin S2x320x128.rank)
  bcast_S2x320_S2x1x320_0_2 : S2x320.BroadcastsInDim S2x1x320 (![0, 2] : Fin 2 → Fin S2x1x320.rank)
  bcast_S2x320x1_S2x320x320_0_1_2 : S2x320x1.BroadcastsInDim S2x320x320 (![0, 1, 2] : Fin 3 → Fin S2x320x320.rank)
  bcast_S2x1x320_S2x320x320_0_1_2 : S2x1x320.BroadcastsInDim S2x320x320 (![0, 1, 2] : Fin 3 → Fin S2x320x320.rank)
  transposes_S2x320x128_S2x128x320_0_2_1 : S2x320x128.Transposes [0, 2, 1] S2x128x320
  bcast_S_S2x320x320 : S_.BroadcastsInDim S2x320x320 (![] : Fin 0 → Fin S2x320x320.rank)
  reducesTo_S2x320x320_S320x320_d0 : S2x320x320.ReducesTo [0] S320x320
  bcast_S_S320x320 : S_.BroadcastsInDim S320x320 (![] : Fin 0 → Fin S320x320.rank)
  bcast_S320x320_S320x320x1_0_1 : S320x320.BroadcastsInDim S320x320x1 (![0, 1] : Fin 2 → Fin S320x320x1.rank)
  bcast_S320x320_S320x1x320_0_2 : S320x320.BroadcastsInDim S320x1x320 (![0, 2] : Fin 2 → Fin S320x1x320.rank)
  bcast_S_S320x1x320 : S_.BroadcastsInDim S320x1x320 (![] : Fin 0 → Fin S320x1x320.rank)
  bcast_S320x320x1_S320x320x320_0_1_2 : S320x320x1.BroadcastsInDim S320x320x320 (![0, 1, 2] : Fin 3 → Fin S320x320x320.rank)
  bcast_S320x1x320_S320x320x320_0_1_2 : S320x1x320.BroadcastsInDim S320x320x320 (![0, 1, 2] : Fin 3 → Fin S320x320x320.rank)
  reducesTo_S320x128_S320_d1 : S320x128.ReducesTo [1] S320
  bcast_S320_S320x1_0 : S320.BroadcastsInDim S320x1 (![0] : Fin 1 → Fin S320x1.rank)
  bcast_S_S320x1 : S_.BroadcastsInDim S320x1 (![] : Fin 0 → Fin S320x1.rank)
  bcast_S320x1_S320x128_0_1 : S320x1.BroadcastsInDim S320x128 (![0, 1] : Fin 2 → Fin S320x128.rank)
  bcast_S320_S1x320_1 : S320.BroadcastsInDim S1x320 (![1] : Fin 1 → Fin S1x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  transposes_S320x128_S128x320_1_0 : S320x128.Transposes [1, 0] S128x320
  bcast_S_S320x320x320 : S_.BroadcastsInDim S320x320x320 (![] : Fin 0 → Fin S320x320x320.rank)
  reducesTo_S320x320x320_S320x320_d2 : S320x320x320.ReducesTo [2] S320x320
  reducesTo_S320x320_S_d0_1 : S320x320.ReducesTo [0, 1] S_
  dot_S2x320x128_S2x128x320_S2x320x320_2_1_1_2_0_0_wf : DotDims.WF S2x320x128 S2x128x320 S2x320x320 [2] [1] [1] [2] [0] [0]
  dot_S320x128_S128x320_S320x320_1_0_0_1_n_n_wf : DotDims.WF S320x128 S128x320 S320x320 [1] [0] [0] [1] [] []

variable [Facts₀]

def dot_S2x320x128_S2x128x320_S2x320x320_2_1_1_2_0_0 : DotDims S2x320x128 S2x128x320 S2x320x320 where
  lhsContracting := [2]
  rhsContracting := [1]
  lhsNonContracting := [1]
  rhsNonContracting := [2]
  lhsBatch := [0]
  rhsBatch := [0]
  wf := dot_S2x320x128_S2x128x320_S2x320x320_2_1_1_2_0_0_wf
def dot_S320x128_S128x320_S320x320_1_0_0_1_n_n : DotDims S320x128 S128x320 S320x320 where
  lhsContracting := [1]
  rhsContracting := [0]
  lhsNonContracting := [0]
  rhsNonContracting := [1]
  lhsBatch := []
  rhsBatch := []
  wf := dot_S320x128_S128x320_S320x320_1_0_0_1_n_n_wf

class Facts : Prop extends Facts₀ where

variable [Facts]
-- ==== Proof.Spec.lean ====
/-
  The relaxed triplet loss, as ONE function of the two pairwise matrices it is computed from: the embedding
  distances `d` and the soft pair weights `p` (both 320 × 320). For an anchor row `i`, a positive-like column `j`
  and a negative-like column `k`:

    hinge  t(j,k) = max (margin − (d k − d j)) 0          (margin the f32 word of 0.2)
    weight w(j,k) = p j · (1 − p k)
    semi-hard term  t · ([0 < t ∧ t ≤ margin] · w),   maximised over k from −∞
    hard term       t − ρ · ([margin < t] · w),        minimised over k from +∞   (ρ = 10)
    pos(j) = M + [M ≤ θ] · ((m + ρ) · [m < 0])        (θ the f32 word of 0.01)
    the row's numerator  Σ_j pos(j) · p j,   its denominator  Σ_j p j

  and the loss is  [den > 0] ? num / max den ε : 0  of the two totals over the rows. Everything is written with the
  float operations read at the extended reals, the literals as their f32 words, so that a program's text, read at
  an index, is this text. The one law used downstream is a regrouping of a finite sum (`sum_tiles`): the rows taken
  eight at a time, tile after tile, are all the rows.
-/
import Idealize.ShloMosaic.PureOps.Ideal.Laws
import Idealize.ShloMosaic.Lib.ValueIdx

noncomputable section

namespace TripletSpec

open Idealize.ShloMosaic

/-- An ideal f32 value: an extended real. -/
abbrev R : Type := Ideal .f32

abbrev cZero : R := FloatOps.ofBits .f32 0x00000000#32
abbrev cOne : R := FloatOps.ofBits .f32 0x3F800000#32
abbrev cMargin : R := FloatOps.ofBits .f32 0x3E4CCCCD#32
abbrev cRho : R := FloatOps.ofBits .f32 0x41200000#32
abbrev cTheta : R := FloatOps.ofBits .f32 0x3C23D70A#32
abbrev cNegInf : R := FloatOps.ofBits .f32 0xFF800000#32
abbrev cPosInf : R := FloatOps.ofBits .f32 0x7F800000#32
abbrev cEps : R := FloatOps.ofBits .f32 0x2B8CBCCC#32

/-- The hinge of the triple: `max (margin − (d k − d j)) 0`. -/
def hinge (dj dk : R) : R :=
  FloatOps.maximumf (FloatOps.subf cMargin (FloatOps.subf dk dj)) cZero

/-- The triple's weight: `p j · (1 − p k)`. -/
def tripw (pj pk : R) : R := FloatOps.mulf pj (FloatOps.subf cOne pk)

/-- The semi-hard term: the hinge where it lies in `(0, margin]`, weighted; zero elsewhere. -/
def semi (dj dk pj pk : R) : R :=
  FloatOps.mulf (hinge dj dk)
    (FloatOps.mulf (FloatOps.uitofp .f32 (IntOp.andi (FloatOps.cmpf .ogt (hinge dj dk) cZero) (FloatOps.cmpf .ole (hinge dj dk) cMargin)))
      (tripw pj pk))

/-- The hard term: the hinge, lowered by `ρ` times the weight where it exceeds the margin. -/
def hardv (dj dk pj pk : R) : R :=
  FloatOps.subf (hinge dj dk)
    (FloatOps.mulf cRho (FloatOps.mulf (FloatOps.uitofp .f32 (FloatOps.cmpf .ogt (hinge dj dk) cMargin)) (tripw pj pk)))

/-- The largest semi-hard term of `(i, j)` over the negatives `k`, from `−∞`. -/
def semiMax (d p : Fin 320 → R) (j : Fin 320) : R :=
  (Finset.univ : Finset (Fin 320)).fold FloatOps.maximumf cNegInf (fun k => semi (d j) (d k) (p j) (p k))

/-- The smallest hard term of `(i, j)` over the negatives `k`, from `+∞`. -/
def hardMin (d p : Fin 320 → R) (j : Fin 320) : R :=
  (Finset.univ : Finset (Fin 320)).fold FloatOps.minimumf cPosInf (fun k => hardv (d j) (d k) (p j) (p k))

/-- The pair's loss from the two extrema, weighted by the pair's weight. -/
def posw (M mn pj : R) : R :=
  FloatOps.mulf
    (FloatOps.addf M
      (FloatOps.mulf (FloatOps.uitofp .f32 (FloatOps.cmpf .ole M cTheta))
        (FloatOps.mulf (FloatOps.addf mn cRho) (FloatOps.uitofp .f32 (FloatOps.cmpf .olt mn cZero)))))
    pj

/-- The weighted loss of the pair `(i, j)`, from row `i` of the distances and of the weights. -/
def rowW (d p : Fin 320 → R) (j : Fin 320) : R := posw (semiMax d p j) (hardMin d p j) (p j)

/-- A row's share of the numerator, and of the denominator. -/
def rowNum (d p : Fin 320 → R) : EReal := ∑ j : Fin 320, rowW d p j
def rowDen (p : Fin 320 → R) : EReal := ∑ j : Fin 320, p j

/-- The two totals over the rows. -/
def numOf (D P : Fin 320 → Fin 320 → R) : EReal := ∑ i : Fin 320, rowNum (D i) (P i)
def denOf (P : Fin 320 → Fin 320 → R) : EReal := ∑ i : Fin 320, rowDen (P i)

/-- The guarded quotient: `num / max den ε` where the denominator is positive, else zero. -/
def guarded (num den : R) : R :=
  Scalar.select (FloatOps.cmpf .ogt den cZero) (FloatOps.hostDivf num (FloatOps.maximumf den cEps)) cZero

/-- Row `8 t + q` of a 320-row array, for tile `t` of forty and row `q` of the tile's eight. -/
def tileRow (t : Fin 40) (q : Fin 8) : Fin 320 := ⟨8 * t.val + q.val, by omega⟩

/-- The rows taken eight at a time, tile after tile, are all the rows: a finite sum regrouped. -/
theorem sum_tiles {M : Type*} [AddCommMonoid M] (f : Fin 320 → M) :
    ∑ t : Fin 40, ∑ q : Fin 8, f (tileRow t q) = ∑ i : Fin 320, f i := by
  rw [← Finset.sum_product']
  refine Fintype.sum_equiv (finProdFinEquiv (m := 40) (n := 8)) _ _ (fun x => ?_)
  congr 1
  apply Fin.ext
  simp [tileRow, finProdFinEquiv]
  omega

end TripletSpec

end
-- ==== Proof.KPieces.lean ====
/-
  What one grid point leaves in the two accumulators' staging blocks, as values. At the first point the body
  zeroes each accumulator, reads the zero back and stores zero plus the point's share; at every later point it
  stores the block it finds plus the point's share. The share is the body's arithmetic (its two store payloads)
  of the point's block of distances `x0` and block of weights `x1`, which the loads read whole.
-/
import proofs.«110869_j12395275616913_1_alg».proof.Proof.Gen.KernelIdeal.Frame
import Idealize.ShloMosaic.Lib.Pipeline.Value
import Idealize.ShloMosaic.Lib.Tactic

noncomputable section

namespace Cert.KernelIdeal.KPieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- The f32 word of `ρ = 10` the body splats. -/
abbrev rho : F .f32 := Scalar.ofBits .f32 0x41200000#32

/-- A point's new numerator from the running one `acc`. -/
abbrev numStep (x0 x1 : Vec F S8x320 .f32) (acc : Vec F S1x1 .f32) : Vec F S1x1 .f32 :=
  k0_pay1 (k0_pay5 x1) (k0_pay8 x0 x1) (k0_pay9 x0 x1) rho acc

/-- A point's new denominator from the running one `acc`. -/
abbrev denStep (x1 : Vec F S8x320 .f32) (acc : Vec F S1x1 .f32) : Vec F S1x1 .f32 :=
  k0_pay2 (k0_pay5 x1) acc

/-- A later point: the numerator's block ends at the block found plus the share. -/
theorem numB (c : Dev nD) (i : grid0.Coords) (a1 : Memref sig .tc .vmem S8x320 .f32) (h1 : a1.IsWhole)
    (a2 : Memref sig .tc .vmem S8x320 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S8x320 .f32) (xo2 xo3 : Vec F S1x1 .f32) :
    out0_B_2 c i a1 h1 a2 h2 a3 h3 a4 h4 hc x0 x1 xo2 xo3 = numStep x0 x1 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h3.read_unread, View.ld_unit_zero (S := S8x320) hz,
    View.ld_unit_zero (S := S1x1) hz]

/-- A later point: the denominator's block ends at the block found plus the weights' sum. -/
theorem denB (c : Dev nD) (i : grid0.Coords) (a1 : Memref sig .tc .vmem S8x320 .f32) (h1 : a1.IsWhole)
    (a2 : Memref sig .tc .vmem S8x320 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S8x320 .f32) (xo2 xo3 : Vec F S1x1 .f32) :
    out0_B_3 c i a1 h1 a2 h2 a3 h3 a4 h4 hc x0 x1 xo2 xo3 = denStep x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread, View.ld_unit_zero (S := S8x320) hz,
    View.ld_unit_zero (S := S1x1) hz]

/-- The first point: the numerator's block is zeroed, then ends at zero plus the share. -/
theorem numA (c : Dev nD) (i : grid0.Coords) (a1 : Memref sig .tc .vmem S8x320 .f32) (h1 : a1.IsWhole)
    (a2 : Memref sig .tc .vmem S8x320 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S8x320 .f32) :
    out0_A_2 c i a1 h1 a2 h2 a3 h3 a4 h4 hc x0 x1 = numStep x0 x1 k0_pay3 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8x320) hz,
    View.ld_unit_zero (S := S1x1) hz]

/-- The first point: the denominator's block is zeroed, then ends at zero plus the weights' sum. -/
theorem denA (c : Dev nD) (i : grid0.Coords) (a1 : Memref sig .tc .vmem S8x320 .f32) (h1 : a1.IsWhole)
    (a2 : Memref sig .tc .vmem S8x320 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S8x320 .f32) :
    out0_A_3 c i a1 h1 a2 h2 a3 h3 a4 h4 hc x0 x1 = denStep x1 k0_pay4 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8x320) hz,
    View.ld_unit_zero (S := S1x1) hz]

end Cert.KernelIdeal.KPieces

end
-- ==== Proof.KPay.lean ====
/-
  The kernel body's arithmetic, read at an index over the extended reals. A grid point holds eight rows of the
  distance matrix (`xd`) and of the weight matrix (`xp`); from them the body forms, for each of its rows `q` and
  each column `j`, the pair's weighted loss, sums it over `j` and then over the eight rows, and adds that to the
  running numerator; likewise the weights themselves into the running denominator. Here each of those stores'
  values is shown to be the running value plus the eight rows' shares as the specification states them.
-/
import proofs.«110869_j12395275616913_1_alg».proof.Proof.Gen.KernelIdeal.Skeleton
import proofs.«110869_j12395275616913_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.KPay

open Idealize.ShloMosaic Idealize.ShloMosaic.ValueIdx TripletSpec Cert.KernelIdeal Cert.KernelIdeal.Gen

/-! ## Layout: the two casts and the two broadcasts of the body, read at coordinates -/

section Layout
variable {α : Type}

/-- An `8 × 320` array cast to `8 × 1 × 320` reads, at `(q, u, k)`, the operand at `(q, k)`. -/
theorem cast_row_apply (x : S8x320.Idx → α) (h : S8x320.ShapeCasts S8x1x320) (q : Fin 8) (u : Fin 1) (k : Fin 320) :
    shapeCast S8x1x320 x h (ix3 q u k) = x (ix2 q k) :=
  shapeCast_apply x h _ _ (by
    have hu : u.val = 0 := by omega
    rw [Shape.rowMajor_val_three, Shape.rowMajor_val_two]
    show q.val * 320 + k.val = (q.val * 1 + u.val) * 320 + k.val
    rw [hu, Nat.mul_one, Nat.add_zero])

/-- An `8 × 320` array cast to `8 × 320 × 1` reads, at `(q, j, u)`, the operand at `(q, j)`. -/
theorem cast_col_apply (x : S8x320.Idx → α) (h : S8x320.ShapeCasts S8x320x1) (q : Fin 8) (j : Fin 320) (u : Fin 1) :
    shapeCast S8x320x1 x h (ix3 q j u) = x (ix2 q j) :=
  shapeCast_apply x h _ _ (by
    have hu : u.val = 0 := by omega
    rw [Shape.rowMajor_val_three, Shape.rowMajor_val_two]
    show q.val * 320 + j.val = (q.val * 320 + j.val) * 1 + u.val
    rw [hu, Nat.mul_one, Nat.add_zero])

/-- An `8 × 1 × 320` array broadcast to `8 × 320 × 320` reads, at `(q, j, k)`, the operand at `(q, 0, k)`. -/
theorem bcast_row_apply (x : S8x1x320.Idx → α) (h : S8x1x320.Broadcasts S8x320x320) (q : Fin 8) (j k : Fin 320) :
    broadcastTo S8x320x320 x h (ix3 q j k) = x (ix3 q (0 : Fin 1) k) :=
  broadcastTo_apply x h (ix3 q j k) (ix3 q (0 : Fin 1) k) fun a =>
    match a with
    | ⟨0, _⟩ => rfl
    | ⟨1, _⟩ => rfl
    | ⟨2, _⟩ => rfl

/-- An `8 × 320 × 1` array broadcast to `8 × 320 × 320` reads, at `(q, j, k)`, the operand at `(q, j, 0)`. -/
theorem bcast_col_apply (x : S8x320x1.Idx → α) (h : S8x320x1.Broadcasts S8x320x320) (q : Fin 8) (j k : Fin 320) :
    broadcastTo S8x320x320 x h (ix3 q j k) = x (ix3 q j (0 : Fin 1)) :=
  broadcastTo_apply x h (ix3 q j k) (ix3 q j (0 : Fin 1)) fun a =>
    match a with
    | ⟨0, _⟩ => rfl
    | ⟨1, _⟩ => rfl
    | ⟨2, _⟩ => rfl

/-- The row operand of the body's outer differences: cast, then broadcast along `j`; at `(q, j, k)` it is `x (q, k)`. -/
theorem row_read (x : S8x320.Idx → α) (h0 : S8x320.ShapeCasts S8x320) (h1 : S8x320.ShapeCasts S8x1x320)
    (hb : S8x1x320.Broadcasts S8x320x320) (q : Fin 8) (j k : Fin 320) :
    broadcastTo S8x320x320 (shapeCast S8x1x320 (shapeCast S8x320 x h0) h1) hb (ix3 q j k) = x (ix2 q k) := by
  rw [bcast_row_apply, cast_row_apply, shapeCast_self]

/-- The column operand: cast, then broadcast along `k`; at `(q, j, k)` it is `x (q, j)`. -/
theorem col_read (x : S8x320.Idx → α) (h0 : S8x320.ShapeCasts S8x320) (h1 : S8x320.ShapeCasts S8x320x1)
    (hb : S8x320x1.Broadcasts S8x320x320) (q : Fin 8) (j k : Fin 320) :
    broadcastTo S8x320x320 (shapeCast S8x320x1 (shapeCast S8x320 x h0) h1) hb (ix3 q j k) = x (ix2 q j) := by
  rw [bcast_col_apply, cast_col_apply, shapeCast_self]

end Layout

/-! ## The hinge and the weight of a triple -/

/-- The body's hinge array at `(q, j, k)` is the specification's hinge of row `q`'s distances at `j` and `k`. -/
theorem pay6_apply (xd : Vec Ideal S8x320 .f32) (q : Fin 8) (j k : Fin 320) :
    k0_pay6 (F := Ideal) xd (ix3 q j k) = hinge (xd (ix2 q j)) (xd (ix2 q k)) := by
  unfold k0_pay6 hinge
  show FloatOps.maximumf (FloatOps.subf cMargin (FloatOps.subf (broadcastTo S8x320x320 _ _ (ix3 q j k))
    (broadcastTo S8x320x320 _ _ (ix3 q j k)))) cZero = _
  rw [row_read, col_read]

/-- The body's weight array at `(q, j, k)` is the specification's weight of row `q`'s weights at `j` and `k`. -/
theorem pay7_apply (xp : Vec Ideal S8x320 .f32) (q : Fin 8) (j k : Fin 320) :
    k0_pay7 (F := Ideal) xp (ix3 q j k) = tripw (xp (ix2 q j)) (xp (ix2 q k)) := by
  unfold k0_pay7 k0_pay5 tripw
  show FloatOps.mulf (broadcastTo S8x320x320 (shapeCast S8x320x1 (shapeCast S8x320 xp _) _) _ (ix3 q j k))
    (broadcastTo S8x320x320 (subf (broadcast S8x1x320 cOne) (shapeCast S8x1x320 (shapeCast S8x320 xp _) _)) _ (ix3 q j k)) = _
  rw [col_read, bcast_row_apply]
  show FloatOps.mulf _ (FloatOps.subf cOne (shapeCast S8x1x320 (shapeCast S8x320 xp _) _ (ix3 q (0 : Fin 1) k))) = _
  rw [cast_row_apply, shapeCast_self]

/-! ## The two extrema over the negatives -/

/-- A condition widened to a word and converted signed, at one index, is the condition converted unsigned. -/
theorem sitofp_extui_apply {s : Shape} (b : IVec s 1) (h : 1 < 32) (i : s.Idx) :
    (sitofp .f32 (extui 32 b h) : FVec Ideal s .f32) i = FloatOps.uitofp .f32 (b i) :=
  congrFun (sitofp_extui_eq_uitofp b h) i

/-- The body's semi-hard array, read at `(q, j, k)`. -/
theorem pay8_term (xd xp : Vec Ideal S8x320 .f32) (q : Fin 8) (j k : Fin 320) :
    mulf (k0_pay6 (F := Ideal) xd)
        (mulf (sitofp .f32 (extui 32 (andi (cmpf .ogt (k0_pay6 (F := Ideal) xd) (broadcast S8x320x320 (Scalar.ofBits .f32 0x00000000#32)))
          (cmpf .ole (k0_pay6 (F := Ideal) xd) (broadcast S8x320x320 (Scalar.ofBits .f32 0x3E4CCCCD#32)))) natLt_1_32))
          (k0_pay7 (F := Ideal) xp)) (ix3 q j k)
      = semi (xd (ix2 q j)) (xd (ix2 q k)) (xp (ix2 q j)) (xp (ix2 q k)) := by
  unfold semi
  show FloatOps.mulf (k0_pay6 (F := Ideal) xd (ix3 q j k))
      (FloatOps.mulf ((sitofp .f32 (extui 32 (andi (cmpf .ogt (k0_pay6 (F := Ideal) xd) _)
          (cmpf .ole (k0_pay6 (F := Ideal) xd) _)) natLt_1_32) : FVec Ideal S8x320x320 .f32) (ix3 q j k))
        (k0_pay7 (F := Ideal) xp (ix3 q j k))) = _
  rw [sitofp_extui_apply, pay7_apply]
  show FloatOps.mulf (k0_pay6 (F := Ideal) xd (ix3 q j k))
      (FloatOps.mulf (FloatOps.uitofp .f32 (IntOp.andi (FloatOps.cmpf .ogt (k0_pay6 (F := Ideal) xd (ix3 q j k)) cZero)
        (FloatOps.cmpf .ole (k0_pay6 (F := Ideal) xd (ix3 q j k)) cMargin))) _) = _
  rw [pay6_apply]

/-- The body's hard array, read at `(q, j, k)`. -/
theorem pay9_term (xd xp : Vec Ideal S8x320 .f32) (q : Fin 8) (j k : Fin 320) :
    subf (k0_pay6 (F := Ideal) xd)
        (mulf (broadcast S8x320x320 (Scalar.ofBits .f32 0x41200000#32))
          (mulf (sitofp .f32 (extui 32 (cmpf .ogt (k0_pay6 (F := Ideal) xd) (broadcast S8x320x320 (Scalar.ofBits .f32 0x3E4CCCCD#32))) natLt_1_32))
            (k0_pay7 (F := Ideal) xp))) (ix3 q j k)
      = hardv (xd (ix2 q j)) (xd (ix2 q k)) (xp (ix2 q j)) (xp (ix2 q k)) := by
  unfold hardv
  show FloatOps.subf (k0_pay6 (F := Ideal) xd (ix3 q j k))
      (FloatOps.mulf cRho (FloatOps.mulf ((sitofp .f32 (extui 32 (cmpf .ogt (k0_pay6 (F := Ideal) xd) _) natLt_1_32) :
          FVec Ideal S8x320x320 .f32) (ix3 q j k))
        (k0_pay7 (F := Ideal) xp (ix3 q j k)))) = _
  rw [sitofp_extui_apply, pay7_apply]
  show FloatOps.subf (k0_pay6 (F := Ideal) xd (ix3 q j k))
      (FloatOps.mulf cRho (FloatOps.mulf (FloatOps.uitofp .f32 (FloatOps.cmpf .ogt (k0_pay6 (F := Ideal) xd (ix3 q j k)) cMargin)) _)) = _
  rw [pay6_apply]

/-- The index over `(q, j)` with `k` put on the reduced last axis is `(q, j, k)`. -/
theorem lift_last (q : Fin 8) (j k : Fin 320) : reduces_S8x320x320_S8x320.lift (ix2 q j) k = ix3 q j k := by
  funext c
  match c with
  | ⟨0, _⟩ => exact Fin.ext rfl
  | ⟨1, _⟩ => exact Fin.ext rfl
  | ⟨2, _⟩ => exact Fin.ext rfl

/-- The body's largest semi-hard term at `(q, j)` is the specification's, of row `q`. -/
theorem pay8_apply (xd xp : Vec Ideal S8x320 .f32) (q : Fin 8) (j : Fin 320) :
    k0_pay8 (F := Ideal) xd xp (ix2 q j) = semiMax (fun k => xd (ix2 q k)) (fun k => xp (ix2 q k)) j := by
  unfold k0_pay8 semiMax
  refine (multiReduction_maximumf_eq_fold (F := Ideal) _ _ _ _ _ _).trans ?_
  refine (Shape.Reduces.fold_filter_drop_single _ _ _ _ _).trans ?_
  refine congrArg (fun f => Finset.fold FloatOps.maximumf cNegInf f Finset.univ) (funext fun k => ?_)
  exact (congrArg _ (lift_last q j k)).trans (pay8_term xd xp q j k)

/-- The body's smallest hard term at `(q, j)` is the specification's, of row `q`. -/
theorem pay9_apply (xd xp : Vec Ideal S8x320 .f32) (q : Fin 8) (j : Fin 320) :
    k0_pay9 (F := Ideal) xd xp (ix2 q j) = hardMin (fun k => xd (ix2 q k)) (fun k => xp (ix2 q k)) j := by
  unfold k0_pay9 hardMin
  refine (multiReduction_minimumf_eq_fold (F := Ideal) _ _ _ _ _ _).trans ?_
  refine (Shape.Reduces.fold_filter_drop_single _ _ _ _ _).trans ?_
  refine congrArg (fun f => Finset.fold FloatOps.minimumf cPosInf f Finset.univ) (funext fun k => ?_)
  exact (congrArg _ (lift_last q j k)).trans (pay9_term xd xp q j k)

/-! ## The pair's weighted loss, and the two totals -/

/-- The weights pass through an identity cast. -/
theorem pay5_eq (xp : Vec Ideal S8x320 .f32) : k0_pay5 (F := Ideal) xp = xp := shapeCast_self _ _

/-- The body's weighted-loss text over any three `8 × 320` arrays (the two extrema and the weights), read at an
index: the specification's `posw` of their three values there. -/
theorem posw_read (M N P : FVec Ideal S8x320 .f32) (i : S8x320.Idx) :
    mulf (addf M
        (mulf (sitofp .f32 (extui 32 (cmpf .ole M (broadcast S8x320 (Scalar.ofBits .f32 0x3C23D70A#32))) natLt_1_32))
          (mulf (addf N (broadcast S8x320 (Scalar.ofBits .f32 0x41200000#32)))
            (sitofp .f32 (extui 32 (cmpf .olt N (broadcast S8x320 (Scalar.ofBits .f32 0x00000000#32))) natLt_1_32)))))
      P i
      = posw (M i) (N i) (P i) := by
  unfold posw
  show FloatOps.mulf
      (FloatOps.addf (M i)
        (FloatOps.mulf ((sitofp .f32 (extui 32 (cmpf .ole M _) natLt_1_32) : FVec Ideal S8x320 .f32) i)
          (FloatOps.mulf (FloatOps.addf (N i) cRho)
            ((sitofp .f32 (extui 32 (cmpf .olt N _) natLt_1_32) : FVec Ideal S8x320 .f32) i))))
      (P i) = _
  rw [sitofp_extui_apply, sitofp_extui_apply]
  rfl

/-- The index over `q` with `j` put on the reduced lane axis is `(q, j)`. -/
theorem lift_lane (q : Fin 8) (j : Fin 320) : reduces_S8x320_S8.lift (ix1 q) j = ix2 q j := by
  funext c
  match c with
  | ⟨0, _⟩ => exact Fin.ext rfl
  | ⟨1, _⟩ => exact Fin.ext rfl

/-- The index over the one column `u` with `q` put on the reduced row axis is `(q, u)`. -/
theorem lift_rows (u : Fin 1) (q : Fin 8) : reduces_S8x1_S1.lift (ix1 u) q = ix2 q u := by
  funext c
  match c with
  | ⟨0, _⟩ => exact Fin.ext rfl
  | ⟨1, _⟩ => exact Fin.ext rfl

/-- The sum over the lanes of row `q`. -/
theorem lane_sum (v : FVec Ideal S8x320 .f32) (q : Fin 8) :
    multiReduction (F := Ideal) .add [1] S8 v 0x00000000#32 reduces_S8x320_S8 (.inl rfl) rfl (ix1 q)
      = ∑ j : Fin 320, v (ix2 q j) := by
  refine (Ideal.multiReduction_add_single v _ _ _ _ _).trans ?_
  show ∑ j : Fin 320, v (reduces_S8x320_S8.lift (ix1 q) j) = _
  exact Finset.sum_congr rfl fun j _ => congrArg v (lift_lane q j)

/-- The sum over the eight rows of a column. -/
theorem row_sum (w : FVec Ideal S8x1 .f32) (u : Fin 1) :
    multiReduction (F := Ideal) .add [0] S1 w 0x00000000#32 reduces_S8x1_S1 (.inl rfl) rfl (ix1 u)
      = ∑ q : Fin 8, w (ix2 q u) := by
  refine (Ideal.multiReduction_add_single w _ _ _ _ _).trans ?_
  show ∑ q : Fin 8, w (reduces_S8x1_S1.lift (ix1 u) q) = _
  exact Finset.sum_congr rfl fun q _ => congrArg w (lift_rows u q)

/-- An `8`-vector cast to `8 × 1` reads, at `(q, u)`, the operand at `q`. -/
theorem cast_rows_apply {α : Type} (x : S8.Idx → α) (h : S8.ShapeCasts S8x1) (q : Fin 8) (u : Fin 1) :
    shapeCast S8x1 x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- The two-step total of an `8 × 320` array: the lanes of each row, then the eight rows. -/
theorem total_apply (v : FVec Ideal S8x320 .f32) (y : S1x1.Idx) :
    shapeCast S1x1 (multiReduction (F := Ideal) .add [0] S1
        (shapeCast S8x1 (multiReduction (F := Ideal) .add [1] S8 v 0x00000000#32 reduces_S8x320_S8 (.inl rfl) rfl) shapeCasts_S8_S8x1)
        0x00000000#32 reduces_S8x1_S1 (.inl rfl) rfl) shapeCasts_S1_S1x1 y
      = ∑ q : Fin 8, ∑ j : Fin 320, v (ix2 q j) := by
  rw [eq_ix2 y]
  refine (shapeCast_a_1a_apply _ _ (y 0) (y 1)).trans ?_
  refine (row_sum _ _).trans ?_
  refine Finset.sum_congr rfl fun q _ => ?_
  refine (cast_rows_apply _ _ q (y 1)).trans ?_
  exact lane_sum v q

/-- The numerator's store over any three `8 × 320` arrays: the running value plus the total of the weighted losses. -/
theorem pay1_read (v6 v32 v41 : FVec Ideal S8x320 .f32) (acc : Vec Ideal S1x1 .f32) (y : S1x1.Idx) :
    k0_pay1 (F := Ideal) v6 v32 v41 (Scalar.ofBits .f32 0x41200000#32) acc y
      = acc y + ∑ q : Fin 8, ∑ j : Fin 320, posw (v32 (ix2 q j)) (v41 (ix2 q j)) (v6 (ix2 q j)) := by
  unfold k0_pay1
  show (shapeCast S1x1 acc shapeCasts_S1x1_S1x1 y : EReal)
      + shapeCast S1x1 (multiReduction (F := Ideal) .add [0] S1
          (shapeCast S8x1 (multiReduction (F := Ideal) .add [1] S8 _ 0x00000000#32 reduces_S8x320_S8 (.inl rfl) rfl) shapeCasts_S8_S8x1)
          0x00000000#32 reduces_S8x1_S1 (.inl rfl) rfl) shapeCasts_S1_S1x1 y = _
  rw [shapeCast_self]
  refine congrArg (acc y + ·) ((total_apply _ y).trans ?_)
  exact Finset.sum_congr rfl fun q _ => Finset.sum_congr rfl fun j _ => posw_read _ _ _ _

/-- The denominator's store over any `8 × 320` array: the running value plus its total. -/
theorem pay2_read (v6 : FVec Ideal S8x320 .f32) (acc : Vec Ideal S1x1 .f32) (y : S1x1.Idx) :
    k0_pay2 (F := Ideal) v6 acc y = acc y + ∑ q : Fin 8, ∑ j : Fin 320, v6 (ix2 q j) := by
  unfold k0_pay2
  show (shapeCast S1x1 acc shapeCasts_S1x1_S1x1 y : EReal)
      + shapeCast S1x1 (multiReduction (F := Ideal) .add [0] S1
          (shapeCast S8x1 (multiReduction (F := Ideal) .add [1] S8 v6 0x00000000#32 reduces_S8x320_S8 (.inl rfl) rfl) shapeCasts_S8_S8x1)
          0x00000000#32 reduces_S8x1_S1 (.inl rfl) rfl) shapeCasts_S1_S1x1 y = _
  rw [shapeCast_self]
  exact congrArg (acc y + ·) (total_apply _ y)

/-- The numerator's store: the running value plus the eight rows' numerator shares. -/
theorem pay1_apply (xd xp : Vec Ideal S8x320 .f32) (acc : Vec Ideal S1x1 .f32) (y : S1x1.Idx) :
    k0_pay1 (F := Ideal) (k0_pay5 xp) (k0_pay8 xd xp) (k0_pay9 xd xp) (Scalar.ofBits .f32 0x41200000#32) acc y
      = acc y + ∑ q : Fin 8, rowNum (fun k => xd (ix2 q k)) (fun k => xp (ix2 q k)) := by
  refine (pay1_read _ _ _ acc y).trans ?_
  refine congrArg (acc y + ·) (Finset.sum_congr rfl fun q _ => ?_)
  unfold rowNum
  refine Finset.sum_congr rfl fun j _ => ?_
  unfold rowW
  rw [pay8_apply, pay9_apply, pay5_eq]

/-- The denominator's store: the running value plus the eight rows' weight sums. -/
theorem pay2_apply (xp : Vec Ideal S8x320 .f32) (acc : Vec Ideal S1x1 .f32) (y : S1x1.Idx) :
    k0_pay2 (F := Ideal) (k0_pay5 xp) acc y = acc y + ∑ q : Fin 8, rowDen (fun k => xp (ix2 q k)) := by
  refine (pay2_read _ acc y).trans ?_
  rw [pay5_eq]
  rfl

/-- The two resets store zero. -/
theorem pay3_apply (y : S1x1.Idx) : k0_pay3 (F := Ideal) y = 0 := by
  exact Ideal.ofBits_zero_f32

theorem pay4_apply (y : S1x1.Idx) : k0_pay4 (F := Ideal) y = 0 := by
  exact Ideal.ofBits_zero_f32

end Cert.KernelIdeal.KPay

end
-- ==== Proof.KValue.lean ====
/-
  What the idealized kernel's run leaves in its result. The region walks forty tiles of eight rows; at each it adds
  the tile's share — the eight rows' losses, and the eight rows' weights — to two (1,1) accumulators that it zeroed at
  the first tile and writes back once, after the last. So after tile `n` the accumulators hold the shares of tiles
  `0 … n` (by induction on the tile), the two arrays end at the forty tiles' totals, which regrouped are the totals
  over all 320 rows, and the host lines after the region form the guarded quotient of the two.
-/
import proofs.«110869_j12395275616913_1_alg».proof.Proof.Gen.KernelIdeal.Frame
import proofs.«110869_j12395275616913_1_alg».proof.Proof.KPieces
import proofs.«110869_j12395275616913_1_alg».proof.Proof.KPay
import proofs.«110869_j12395275616913_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.KValue

open Idealize.ShloMosaic Idealize.ShloMosaic.TcCoe Idealize.SL.Sem Idealize.ShloMosaic.ValueIdx TripletSpec
open Idealize.ShloMosaic.Pipeline (Dat)
open Cert.KernelIdeal Cert.KernelIdeal.Gen Cert.KernelIdeal.KPieces

variable (m : (ℓ : Loc nD τ sig) → Buf (Elt Ideal) ℓ) (ρ : Dev nD → PrngReg)

/-- The distance matrix and the weight matrix as the region finds them. -/
abbrev darr (c : Dev nD) : Vec Ideal S320x320 .f32 := V m c main_v54
abbrev parr (c : Dev nD) : Vec Ideal S320x320 .f32 := V m c main_v33
/-- A grid point's eight rows of each. -/
abbrev dblk (c : Dev nD) (t : Fin cfg0.N) : Vec Ideal S8x320 .f32 := iblk m c 0 t
abbrev pblk (c : Dev nD) (t : Fin cfg0.N) : Vec Ideal S8x320 .f32 := iblk m c 1 t

/-- The two matrices by rows. -/
def Dk (c : Dev nD) : Fin 320 → Fin 320 → R := fun i k => darr m c (ix2 i k)
def Pk (c : Dev nD) : Fin 320 → Fin 320 → R := fun i k => parr m c (ix2 i k)

/-- Both input windows step one block of eight rows per grid point and never move along the columns. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Row `q` of point `t`'s block of distances is row `8 t + q` of the matrix. -/
theorem dblk_apply (c : Dev nD) (t : Fin cfg0.N) (q : Fin 8) (k : Fin 320) (h : 8 * t.val + q.val < 320) :
    dblk m c t (ix2 q k) = darr m c (ix2 ⟨8 * t.val + q.val, h⟩ k) := by
  show iblk m c 0 t (ix2 q k) = V m c main_v54 (ix2 ⟨8 * t.val + q.val, h⟩ k)
  unfold iblk
  rw [View.read_apply]
  show V m c main_v54 _ = V m c main_v54 _
  congr 1
  funext a
  apply Fin.ext
  match a with
  | ⟨0, _⟩ => show win0_0.index t 0 * 8 + 1 * q.val = 8 * t.val + q.val; rw [(idx_facts t).1]; omega
  | ⟨1, _⟩ => show win0_0.index t 1 * 320 + 1 * k.val = k.val; rw [(idx_facts t).2.1]; omega

/-- Row `q` of point `t`'s block of weights is row `8 t + q` of the matrix. -/
theorem pblk_apply (c : Dev nD) (t : Fin cfg0.N) (q : Fin 8) (k : Fin 320) (h : 8 * t.val + q.val < 320) :
    pblk m c t (ix2 q k) = parr m c (ix2 ⟨8 * t.val + q.val, h⟩ k) := by
  show iblk m c 1 t (ix2 q k) = V m c main_v33 (ix2 ⟨8 * t.val + q.val, h⟩ k)
  unfold iblk
  rw [View.read_apply]
  show V m c main_v33 _ = V m c main_v33 _
  congr 1
  funext a
  apply Fin.ext
  match a with
  | ⟨0, _⟩ => show win0_1.index t 0 * 8 + 1 * q.val = 8 * t.val + q.val; rw [(idx_facts t).2.2.1]; omega
  | ⟨1, _⟩ => show win0_1.index t 1 * 320 + 1 * k.val = k.val; rw [(idx_facts t).2.2.2]; omega

theorem lt40 (t : Fin cfg0.N) : t.val < 40 := lt_of_lt_of_eq t.isLt (show cfg0.N = 40 from N_0)

/-- Tile `s`'s share of the numerator: its eight rows' losses (zero past the fortieth tile). -/
def shareNum (c : Dev nD) (s : ℕ) : EReal :=
  if h : s < 40 then ∑ q : Fin 8, rowNum (Dk m c (tileRow ⟨s, h⟩ q)) (Pk m c (tileRow ⟨s, h⟩ q)) else 0

/-- Tile `s`'s share of the denominator: its eight rows' weights. -/
def shareDen (c : Dev nD) (s : ℕ) : EReal :=
  if h : s < 40 then ∑ q : Fin 8, rowDen (Pk m c (tileRow ⟨s, h⟩ q)) else 0

/-- One point's step on the numerator: the running value plus the tile's share. -/
theorem num_step (c : Dev nD) (t : Fin cfg0.N) (acc : Vec Ideal S1x1 .f32) (y : S1x1.Idx) :
    numStep (dblk m c t) (pblk m c t) acc y = acc y + shareNum m c t.val := by
  refine (Cert.KernelIdeal.KPay.pay1_apply (dblk m c t) (pblk m c t) acc y).trans ?_
  unfold shareNum
  rw [dif_pos (lt40 t)]
  refine congrArg (acc y + ·) (Finset.sum_congr rfl fun q _ => ?_)
  have hq : 8 * t.val + q.val < 320 := by have := lt40 t; have := q.isLt; omega
  have e1 : (fun k => dblk m c t (ix2 q k)) = Dk m c (tileRow ⟨t.val, lt40 t⟩ q) :=
    funext fun k => dblk_apply m c t q k hq
  have e2 : (fun k => pblk m c t (ix2 q k)) = Pk m c (tileRow ⟨t.val, lt40 t⟩ q) :=
    funext fun k => pblk_apply m c t q k hq
  rw [e1, e2]

/-- One point's step on the denominator. -/
theorem den_step (c : Dev nD) (t : Fin cfg0.N) (acc : Vec Ideal S1x1 .f32) (y : S1x1.Idx) :
    denStep (pblk m c t) acc y = acc y + shareDen m c t.val := by
  refine (Cert.KernelIdeal.KPay.pay2_apply (pblk m c t) acc y).trans ?_
  unfold shareDen
  rw [dif_pos (lt40 t)]
  refine congrArg (acc y + ·) (Finset.sum_congr rfl fun q _ => ?_)
  have hq : 8 * t.val + q.val < 320 := by have := lt40 t; have := q.isLt; omega
  have e2 : (fun k => pblk m c t (ix2 q k)) = Pk m c (tileRow ⟨t.val, lt40 t⟩ q) :=
    funext fun k => pblk_apply m c t q k hq
  rw [e2]

/-- After point `n` the two accumulators hold the shares of tiles `0 … n`, summed. -/
theorem outs_eq (c : Dev nD) : ∀ (n : ℕ) (hn : n < cfg0.N) (y : S1x1.Idx),
    (outsAt0 m c n hn).1 y = ∑ s ∈ Finset.range (n + 1), shareNum m c s
      ∧ (outsAt0 m c n hn).2 y = ∑ s ∈ Finset.range (n + 1), shareDen m c s
  | 0, hn, y => by
    rw [outsAt0_A m c ⟨0, hn⟩ rfl]
    dsimp only
    constructor
    · refine (congrFun (numA (F := Ideal) c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) (ms0_3 ⟨0, hn⟩) (hs0_3 ⟨0, hn⟩) ((hcond0_0 ⟨0, hn⟩).mpr rfl)
        (iblk m c 0 ⟨0, hn⟩) (iblk m c 1 ⟨0, hn⟩)) y).trans ?_
      refine (num_step m c ⟨0, hn⟩ (k0_pay3 (F := Ideal)) y).trans ?_
      rw [Cert.KernelIdeal.KPay.pay3_apply, zero_add, Finset.sum_range_one]
    · refine (congrFun (denA (F := Ideal) c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) (ms0_3 ⟨0, hn⟩) (hs0_3 ⟨0, hn⟩) ((hcond0_0 ⟨0, hn⟩).mpr rfl)
        (iblk m c 0 ⟨0, hn⟩) (iblk m c 1 ⟨0, hn⟩)) y).trans ?_
      refine (den_step m c ⟨0, hn⟩ (k0_pay4 (F := Ideal)) y).trans ?_
      rw [Cert.KernelIdeal.KPay.pay4_apply, zero_add, Finset.sum_range_one]
  | n + 1, hn, y => by
    have h40 : n + 1 < 40 := lt40 ⟨n + 1, hn⟩
    have hB : ¬(⟨n + 1, hn⟩ : Fin cfg0.N).val % 40 = 0 := by dsimp only; omega
    have ih := outs_eq c n (Nat.lt_of_succ_lt hn)
    rw [outsAt0_B m c ⟨n + 1, hn⟩ hB]
    dsimp only
    constructor
    · refine (congrFun (numB (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (fun h => hB ((hcond0_0 ⟨n + 1, hn⟩).mp h))
        (iblk m c 0 ⟨n + 1, hn⟩) (iblk m c 1 ⟨n + 1, hn⟩)
        (outsAt0 m c n (Nat.lt_of_succ_lt hn)).1 (outsAt0 m c n (Nat.lt_of_succ_lt hn)).2) y).trans ?_
      refine (num_step m c ⟨n + 1, hn⟩ (outsAt0 m c n (Nat.lt_of_succ_lt hn)).1 y).trans ?_
      rw [(ih y).1, Finset.sum_range_succ _ (n + 1)]
    · refine (congrFun (denB (F := Ideal) c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (fun h => hB ((hcond0_0 ⟨n + 1, hn⟩).mp h))
        (iblk m c 0 ⟨n + 1, hn⟩) (iblk m c 1 ⟨n + 1, hn⟩)
        (outsAt0 m c n (Nat.lt_of_succ_lt hn)).1 (outsAt0 m c n (Nat.lt_of_succ_lt hn)).2) y).trans ?_
      refine (den_step m c ⟨n + 1, hn⟩ (outsAt0 m c n (Nat.lt_of_succ_lt hn)).2 y).trans ?_
      rw [(ih y).2, Finset.sum_range_succ _ (n + 1)]

/-- The forty tiles' shares are all the rows'. -/
theorem shares_num (c : Dev nD) : ∑ s ∈ Finset.range 40, shareNum m c s = numOf (Dk m c) (Pk m c) := by
  unfold numOf
  rw [Finset.sum_range, ← sum_tiles (fun i => rowNum (Dk m c i) (Pk m c i))]
  refine Finset.sum_congr rfl fun t _ => ?_
  unfold shareNum
  rw [dif_pos t.isLt]

theorem shares_den (c : Dev nD) : ∑ s ∈ Finset.range 40, shareDen m c s = denOf (Pk m c) := by
  unfold denOf
  rw [Finset.sum_range, ← sum_tiles (fun i => rowDen (Pk m c i))]
  refine Finset.sum_congr rfl fun t _ => ?_
  unfold shareDen
  rw [dif_pos t.isLt]

/-- The numerator's and the denominator's (1,1) arrays after the run: the two totals. -/
abbrev numArr (c : Dev nD) : Buf (Elt Ideal) ((c : Thread nD τ).loc main_v55_0) := fun _ => numOf (Dk m c) (Pk m c)
abbrev denArr (c : Dev nD) : Buf (Elt Ideal) ((c : Thread nD τ).loc main_v55_1) := fun _ => denOf (Pk m c)

/-- The one write-back of the numerator, after the last point, writes the total. -/
theorem flushed_num (c : Dev nD) (t : Fin cfg0.N) (hf : (cfg0.win 2).flush t = true) :
    (dats m 0 c).flushed 2 t = ((cfg0.win 2).blk t).view.read (Elt Ideal) (numArr m c) := by
  have h39 : t.val = 39 := by have := (flush0_2 t).mp hf; have := lt40 t; omega
  show (cfg0.win 2).cut (grid0.coords t) ((dats m 0 c).after 2 t) = _
  rw [after0_2]
  funext y
  rw [View.read_apply]
  show (outsAt0 m c t.val t.isLt).1 ((cfg0.win 2).xinj (grid0.coords t) y) = numOf (Dk m c) (Pk m c)
  rw [(outs_eq m c t.val t.isLt _).1, ← shares_num m c, h39]

/-- The one write-back of the denominator writes its total. -/
theorem flushed_den (c : Dev nD) (t : Fin cfg0.N) (hf : (cfg0.win 3).flush t = true) :
    (dats m 0 c).flushed 3 t = ((cfg0.win 3).blk t).view.read (Elt Ideal) (denArr m c) := by
  have h39 : t.val = 39 := by have := (flush0_3 t).mp hf; have := lt40 t; omega
  show (cfg0.win 3).cut (grid0.coords t) ((dats m 0 c).after 3 t) = _
  rw [after0_3]
  funext y
  rw [View.read_apply]
  show (outsAt0 m c t.val t.isLt).2 ((cfg0.win 3).xinj (grid0.coords t) y) = denOf (Pk m c)
  rw [(outs_eq m c t.val t.isLt _).2, ← shares_den m c, h39]

/-- The last grid point. -/
abbrev tLast : Fin cfg0.N := ⟨39, by rw [show cfg0.N = 40 from N_0]; decide⟩

/-- The numerator's array ends at the total: the last point's block is the whole (1,1) array. -/
theorem final_num (c : Dev nD) : (dats m 0 c).arrAt 2 cfg0.N = numArr m c :=
  (dats m 0 c).arrAt_eq_of_cover 2 (numArr m c) (flushed_num m c) fun i =>
    ⟨tLast, (flush0_2 tLast).mpr rfl, by
      show i ∈ ((View.whole main_v55_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The denominator's array ends at its total. -/
theorem final_den (c : Dev nD) : (dats m 0 c).arrAt 3 cfg0.N = denArr m c :=
  (dats m 0 c).arrAt_eq_of_cover 3 (denArr m c) (flushed_den m c) fun i =>
    ⟨tLast, (flush0_3 tLast).mpr rfl, by
      show i ∈ ((View.whole main_v55_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The host lines after the region, read for ANY contents of the two (1,1) arrays: they take the two to scalars and
    form the guarded quotient. -/
theorem tail_read (W : Valuation τ sig (Elt Ideal)) (N D : EReal)
    (e2 : W (Proc.devRef .tc main_v55_0) = fun _ => N) (e3 : W (Proc.devRef .tc main_v55_1) = fun _ => D) :
    StableHlo.after [hostOps1, hostOps1_1].flatten W (Proc.devRef .tc main_v61) = fun _ => guarded N D := by
  simp only [hostOps1, hostOps1_1, List.flatten_cons, List.flatten_nil, List.append_nil, List.cons_append, List.nil_append]
  after_results_simp
  rw [e2, e3]
  rfl

/-- After the region the result is the guarded quotient of the two totals. -/
theorem tail_eq (c : Dev nD) :
    Pipeline.afterTail₀ cfgs (dats m) 0 (V0 m) [hostOps1, hostOps1_1] c main_v61
      = fun _ => guarded (numOf (Dk m c) (Pk m c)) (denOf (Pk m c)) := by
  unfold Pipeline.afterTail₀
  have h2 := Pipeline.withArrays_arr spec0 launch0.win.arr_inj c (V0 m c) (fun w => (dats m 0 c).arrAt w (cfgs 0).N) 2
  have h3 := Pipeline.withArrays_arr spec0 launch0.win.arr_inj c (V0 m c) (fun w => (dats m 0 c).arrAt w (cfgs 0).N) 3
  generalize Pipeline.withArrays (cfgs 0).spec c (V0 m c) (fun w => (dats m 0 c).arrAt w (cfgs 0).N) = W at h2 h3 ⊢
  exact tail_read W (numOf (Dk m c) (Pk m c)) (denOf (Pk m c)) (h2.trans (final_num m c)) (h3.trans (final_den m c))

/-- The idealized kernel's run, read: its result is the guarded quotient of the two totals of the matrices the
    region finds, and its arguments end as launched. -/
theorem run : θ_run defs (onTc (τ := τ) (main (F := Ideal))) ⟨m, fun _ => 0, ρ⟩ fun r => ∀ c : Dev nD,
      r.2.mem ((c.tc : Thread nD τ).loc main_v61) = (fun _ => guarded (numOf (Dk m c) (Pk m c)) (denOf (Pk m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v61 (Pipeline.mem_restRefs_of main_v61 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KValue

end
-- ==== Proof.RefSide.lean ====
/-
  The reference program read at an index over the extended reals. Its distance matrix `d` and weight matrix `p` are
  two stages of its run; everything after them — the hinge over all triples, the two extrema over the negatives, the
  pair's loss, the two totals and the guarded quotient — is the specification's text at those two matrices: the
  weighted loss at `(i, j)` depends on rows `i` of `d` and `p` only, the totals are sums over every pair, regrouped
  by rows.
-/
import proofs.«110869_j12395275616913_1_alg».proof.Proof.Gen.ReferenceIdeal.Read
import proofs.«110869_j12395275616913_1_alg».proof.Proof.Spec
import Idealize.ShloMosaic.Lib.Pipeline.Value
import Idealize.ShloMosaic.Lib.ValueIdx
import Idealize.ShloMosaic.PureOps.Ideal.Laws

noncomputable section

namespace Cert.ReferenceIdeal.RefSide

open Idealize.ShloMosaic Idealize.ShloMosaic.ValueIdx TripletSpec Cert.ReferenceIdeal Cert.ReferenceIdeal.Read

/-- The reference's distance matrix, by rows. -/
def Dm (x1 : FVec Ideal S320x128 .f32) : Fin 320 → Fin 320 → R := fun i k => val_main_v61 (F := Ideal) x1 (ix2 i k)
/-- The reference's weight matrix, by rows. -/
def Pm (x0 : FVec Ideal S2x320x128 .f32) : Fin 320 → Fin 320 → R := fun i k => val_main_v33 (F := Ideal) x0 (ix2 i k)

/-! ### The broadcasts' index maps at explicit coordinates

A triple `(i, j, k)` reads the weight matrix at `(i, j)` and at `(i, k)`, and the distance matrix at `(i, k)` and
at `(i, j)`: each is two broadcasts (insert a unit axis, then stretch it), composed. -/

theorem idx_pj (i j k : Fin 320) : idx_main_v34 (idx_main_v38 (ix3 i j k)) = ix2 i j :=
  funext fun a => Fin.ext (by match a with | ⟨0, _⟩ => rfl | ⟨1, _⟩ => rfl)

theorem idx_pk (i j k : Fin 320) : idx_main_v35 (idx_main_v39 (ix3 i j k)) = ix2 i k :=
  funext fun a => Fin.ext (by match a with | ⟨0, _⟩ => rfl | ⟨1, _⟩ => rfl)

theorem idx_dk (i j k : Fin 320) : idx_main_v62 (idx_main_v64 (ix3 i j k)) = ix2 i k :=
  funext fun a => Fin.ext (by match a with | ⟨0, _⟩ => rfl | ⟨1, _⟩ => rfl)

theorem idx_dj (i j k : Fin 320) : idx_main_v63 (idx_main_v65 (ix3 i j k)) = ix2 i j :=
  funext fun a => Fin.ext (by match a with | ⟨0, _⟩ => rfl | ⟨1, _⟩ => rfl)

/-! ### The stages over all triples, at `(i, j, k)` -/

/-- The triple's weight `p[i,j] · (1 − p[i,k])`. -/
theorem weight_apply (x0 : FVec Ideal S2x320x128 .f32) (i j k : Fin 320) :
    val_main_v40 (F := Ideal) x0 (ix3 i j k) = tripw (Pm x0 i j) (Pm x0 i k) := by
  rw [val_main_v40_apply, val_main_v38_apply, val_main_v34_apply, idx_pj, val_main_v39_apply, val_main_v37_apply,
    val_main_v35_apply, idx_pk, val_main_v36_apply]
  rfl

/-- The triple's hinge `max (margin − (d[i,k] − d[i,j])) 0`. -/
theorem hinge_apply (x1 : FVec Ideal S320x128 .f32) (i j k : Fin 320) :
    val_main_v70 (F := Ideal) x1 (ix3 i j k) = hinge (Dm x1 i j) (Dm x1 i k) := by
  rw [val_main_v70_apply, val_main_v68_apply, val_main_v66_apply, val_main_v64_apply, val_main_v62_apply, idx_dk,
    val_main_v65_apply, val_main_v63_apply, idx_dj, val_main_v67_apply, val_main_v69_apply]
  rfl

/-- The semi-hard term of the triple. -/
theorem semi_apply (x0 : FVec Ideal S2x320x128 .f32) (x1 : FVec Ideal S320x128 .f32) (i j k : Fin 320) :
    val_main_v78 (F := Ideal) x0 x1 (ix3 i j k)
      = semi (Dm x1 i j) (Dm x1 i k) (Pm x0 i j) (Pm x0 i k) := by
  rw [val_main_v78_apply, val_main_v77_apply, val_main_v76_apply, val_main_v75_apply, val_main_v72_apply,
    val_main_v74_apply, val_main_v71_apply, val_main_v73_apply, hinge_apply, weight_apply]
  rfl

/-- The hard term of the triple. -/
theorem hardv_apply (x0 : FVec Ideal S2x320x128 .f32) (x1 : FVec Ideal S320x128 .f32) (i j k : Fin 320) :
    val_main_v86 (F := Ideal) x0 x1 (ix3 i j k)
      = hardv (Dm x1 i j) (Dm x1 i k) (Pm x0 i j) (Pm x0 i k) := by
  rw [val_main_v86_apply, val_main_v85_apply, val_main_v83_apply, val_main_v82_apply, val_main_v81_apply,
    val_main_v80_apply, val_main_v84_apply, hinge_apply, weight_apply]
  rfl

/-! ### The two extrema over the negatives, at `(i, j)` -/

/-- The last axis of the triples is the one folded away. -/
theorem red2 : S320x320x320.Reduces [2] S320x320 := by decide

/-- The pair `(i, j)` with the negative `k` inserted on the folded axis is the triple `(i, j, k)`. -/
theorem lift_ix (i j k : Fin 320) : red2.lift (ix2 i j) k = ix3 i j k :=
  funext fun a => Fin.ext (by match a with | ⟨0, _⟩ => rfl | ⟨1, _⟩ => rfl | ⟨2, _⟩ => rfl)

/-- A fold over the last axis of the triples, read at the pair `(i, j)`: the fold over the negatives `k` of the
    operand at `(i, j, k)`, from the initial value's one element. -/
theorem fold_last (f : R → R → R) [Std.Commutative f] [Std.Associative f] (x : S320x320x320.Idx → R)
    (init : S_.Idx → R) (i j : Fin 320) :
    Host.reduce f x init Gen.reducesTo_S320x320x320_S320x320_d2 Gen.h_S_ (ix2 i j)
      = (Finset.univ : Finset (Fin 320)).fold f (init (Shape.Idx.first Gen.h_S_)) (fun k => x (ix3 i j k)) :=
  (Host.reduce_eq_fold_single f x init Gen.reducesTo_S320x320x320_S320x320_d2 red2 Gen.h_S_ (ix2 i j)).trans
    (congrArg (fun g => (Finset.univ : Finset (Fin 320)).fold f (init (Shape.Idx.first Gen.h_S_)) g)
      (funext fun k => congrArg x (lift_ix i j k)))

/-- The largest semi-hard term over the negatives. -/
theorem semiMax_apply (x0 : FVec Ideal S2x320x128 .f32) (x1 : FVec Ideal S320x128 .f32) (i j : Fin 320) :
    val_main_v79 (F := Ideal) x0 x1 (ix2 i j) = semiMax (Dm x1 i) (Pm x0 i) j :=
  (fold_last FloatOps.maximumf (val_main_v78 (F := Ideal) x0 x1) (val_main_cst_20 (F := Ideal)) i j).trans
    (congrArg (fun g => (Finset.univ : Finset (Fin 320)).fold FloatOps.maximumf cNegInf g)
      (funext fun k => semi_apply x0 x1 i j k))

/-- The smallest hard term over the negatives. -/
theorem hardMin_apply (x0 : FVec Ideal S2x320x128 .f32) (x1 : FVec Ideal S320x128 .f32) (i j : Fin 320) :
    val_main_v87 (F := Ideal) x0 x1 (ix2 i j) = hardMin (Dm x1 i) (Pm x0 i) j :=
  (fold_last FloatOps.minimumf (val_main_v86 (F := Ideal) x0 x1) (val_main_cst_23 (F := Ideal)) i j).trans
    (congrArg (fun g => (Finset.univ : Finset (Fin 320)).fold FloatOps.minimumf cPosInf g)
      (funext fun k => hardv_apply x0 x1 i j k))

/-- The weighted loss of the pair `(i, j)` is the specification's, of rows `i`. -/
theorem weighted_apply (x0 : FVec Ideal S2x320x128 .f32) (x1 : FVec Ideal S320x128 .f32) (i j : Fin 320) :
    val_main_v99 (F := Ideal) x0 x1 (ix2 i j) = rowW (Dm x1 i) (Pm x0 i) j := by
  rw [val_main_v99_apply, val_main_v98_apply, val_main_v97_apply, val_main_v96_apply, val_main_v95_apply,
    val_main_v93_apply, val_main_v92_apply, val_main_v91_apply, val_main_v89_apply, val_main_v94_apply,
    val_main_v90_apply, val_main_v88_apply, semiMax_apply, hardMin_apply]
  rfl

/-- The numerator: the total over all pairs, by rows. -/
theorem num_eq (x0 : FVec Ideal S2x320x128 .f32) (x1 : FVec Ideal S320x128 .f32) (y : S_.Idx) :
    val_main_v100 (F := Ideal) x0 x1 y = numOf (Dm x1) (Pm x0) := by
  rw [val_main_v100_apply]
  refine (congrArg (· + _) Ideal.ofBits_zero_f32).trans ?_
  rw [zero_add, ValueIdx.sum_idx2]
  exact Finset.sum_congr rfl fun i _ => Finset.sum_congr rfl fun j _ => weighted_apply x0 x1 i j

/-- The denominator: the total of the weights, by rows. -/
theorem den_eq (x0 : FVec Ideal S2x320x128 .f32) (y : S_.Idx) :
    val_main_v101 (F := Ideal) x0 y = denOf (Pm x0) := by
  rw [val_main_v101_apply]
  refine (congrArg (· + _) Ideal.ofBits_zero_f32).trans ?_
  rw [zero_add, ValueIdx.sum_idx2]
  rfl

/-- The reference's result: the guarded quotient of the two totals. -/
theorem result_eq (x0 : FVec Ideal S2x320x128 .f32) (x1 : FVec Ideal S320x128 .f32) :
    val_main_v105 (F := Ideal) x0 x1 = fun _ => guarded (numOf (Dm x1) (Pm x0)) (denOf (Pm x0)) := by
  funext y
  rw [val_main_v105_apply, val_main_v104_apply, val_main_v103_apply, val_main_v102_apply, num_eq, den_eq]
  rfl

end Cert.ReferenceIdeal.RefSide

end
-- ==== Proof.HostPrefix.lean ====
/-
  The two matrices everything else is computed from — the pairwise distances of the L2-normalised embeddings,
  `sqrt (max (|x_i|² + |x_j|² − 2 x_i·x_j) 0 + ε)`, and the soft pair weights, the logistic of `ρ (τ − mean distance)`
  of the source embeddings — are computed by the SAME host operations in the kernel's program, before its region, and
  in the reference. So the arrays the region finds are the reference's stages of the same arguments, term for term.
-/
import proofs.«110869_j12395275616913_1_alg».proof.Proof.Gen.KernelIdeal.Frame
import proofs.«110869_j12395275616913_1_alg».proof.Proof.Gen.ReferenceIdeal.Read
import Idealize.ShloMosaic.Lib.StableHlo.Run
import Idealize.ShloMosaic.Lib.Tactic

noncomputable section

namespace Cert.HostPrefix

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxRecDepth 8192 in
set_option maxHeartbeats 4000000 in
/-- Both programs compute the embedding distances by the same host operations, so the matrix the kernel's region
    finds is the reference's stage of the same argument. -/
theorem d_eq (c : Dev Cert.KernelIdeal.nD) :
    (Cert.KernelIdeal.Gen.V m c Cert.KernelIdeal.main_v54 : Cert.KernelIdeal.S320x320.Idx → EReal)
      = Cert.ReferenceIdeal.Read.val_main_v61 (F := Ideal) (m ((c.tc : Thread Cert.KernelIdeal.nD Cert.KernelIdeal.τ).loc Cert.KernelIdeal.main_arg1)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  rfl

set_option maxRecDepth 8192 in
set_option maxHeartbeats 4000000 in
/-- Likewise the soft pair weights, from the source embeddings. -/
theorem p_eq (c : Dev Cert.KernelIdeal.nD) :
    (Cert.KernelIdeal.Gen.V m c Cert.KernelIdeal.main_v33 : Cert.KernelIdeal.S320x320.Idx → EReal)
      = Cert.ReferenceIdeal.Read.val_main_v33 (F := Ideal) (m ((c.tc : Thread Cert.KernelIdeal.nD Cert.KernelIdeal.τ).loc Cert.KernelIdeal.main_arg0)) := by
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, Cert.KernelIdeal.Gen.hostOps0_7,
    List.flatten_cons, List.flatten_nil, List.append_nil, List.cons_append, List.nil_append]
  after_results_simp
  rfl

end Cert.HostPrefix

end
-- ==== Proof.lean ====
/-
  A relaxed triplet loss: from the pairwise distances `d` of the embeddings and the soft pair weights `p` of the source
  embeddings (two 320 × 320 matrices, each computed from its argument by the same host operations in both programs),
  the loss is the guarded quotient `num / max den ε` (zero where `den ≤ 0`) of

      num = Σ_{i,j} pos(i,j) · p[i,j],     den = Σ_{i,j} p[i,j],

  where `pos(i,j)` combines the largest semi-hard hinge and the smallest hard hinge of the pair over all negatives `k`.
  The kernel walks the rows in forty tiles of eight, forms each tile's share of `num` and `den` from the tile's rows of
  `d` and `p` alone, and accumulates the shares; the reference forms the 320³ hinge array and sums over all pairs. Over
  the extended reals the two are one function: `pos(i,j)` depends on rows `i` only, and a finite sum may be taken tile
  by tile. No finiteness of the inputs is needed for that, so the precondition is never opened.

  The three frames: the two kernels' are the frame runs of the region with its host lines around it; the reference's
  is its run with the result dropped. The idealization rewrote nothing, so `preserves` is trivial.
-/
import proofs.«110869_j12395275616913_1_alg».proof.Defs
import proofs.«110869_j12395275616913_1_alg».proof.Proof.Gen.Kernel
import proofs.«110869_j12395275616913_1_alg».proof.Proof.Gen.Kernel.Frame
import proofs.«110869_j12395275616913_1_alg».proof.Proof.Gen.KernelIdeal
import proofs.«110869_j12395275616913_1_alg».proof.Proof.Gen.KernelIdeal.Frame
import proofs.«110869_j12395275616913_1_alg».proof.Proof.Gen.ReferenceIdeal
import proofs.«110869_j12395275616913_1_alg».proof.Proof.Gen.ReferenceIdeal.Run
import proofs.«110869_j12395275616913_1_alg».proof.Proof.Gen.ReferenceIdeal.Read
import proofs.«110869_j12395275616913_1_alg».proof.Proof.Gen.Pre_finite_inputs
import proofs.«110869_j12395275616913_1_alg».proof.Proof.Spec
import proofs.«110869_j12395275616913_1_alg».proof.Proof.KValue
import proofs.«110869_j12395275616913_1_alg».proof.Proof.RefSide
import proofs.«110869_j12395275616913_1_alg».proof.Proof.HostPrefix
import Idealize.ShloMosaic.Adequacy
import Idealize.ShloMosaic.Init

noncomputable section

namespace Cert.Proof

open Idealize.ShloMosaic Idealize.ShloMosaic.TcCoe Idealize.SL.Sem Idealize.ShloMosaic.ValueIdx TripletSpec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two arguments both programs end at the guarded quotient of the totals of ONE pair
    of matrices: the kernel's region finds the very `d` and `p` the reference computes. -/
theorem algebraic : Cert.algebraic_KernelIdeal_ReferenceIdeal := by
  intro m ρ m' ρ' _ hagree
  refine ⟨fun c => fun _ => guarded (numOf (Cert.KernelIdeal.KValue.Dk m c) (Cert.KernelIdeal.KValue.Pk m c))
      (denOf (Cert.KernelIdeal.KValue.Pk m c)), Cert.KernelIdeal.KValue.run m ρ, ?_⟩
  refine (θ_run Cert.ReferenceIdeal.defs _ _).mono (fun _ h c => ⟨(h c).1.trans (funext fun y => ?_), (h c).2⟩)
    (Cert.ReferenceIdeal.Value.run (F := Ideal) m' ρ')
  have eD : Cert.ReferenceIdeal.RefSide.Dm (m ((c.tc : Thread Cert.KernelIdeal.nD Cert.KernelIdeal.τ).loc Cert.KernelIdeal.main_arg1))
      = Cert.KernelIdeal.KValue.Dk m c :=
    funext fun i => funext fun k => (congrFun (Cert.HostPrefix.d_eq m c) (ix2 i k)).symm
  have eP : Cert.ReferenceIdeal.RefSide.Pm (m ((c.tc : Thread Cert.KernelIdeal.nD Cert.KernelIdeal.τ).loc Cert.KernelIdeal.main_arg0))
      = Cert.KernelIdeal.KValue.Pk m c :=
    funext fun i => funext fun k => (congrFun (Cert.HostPrefix.p_eq m c) (ix2 i k)).symm
  beta_reduce
  rw [Cert.ReferenceIdeal.Read.val_main_v105_eq, (hagree c).1, (hagree c).2]
  refine (congrFun (Cert.ReferenceIdeal.RefSide.result_eq _ _) y).trans ?_
  beta_reduce
  rw [eD, eP]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
